-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S4096x2 : Shape := ⟨2, ![4096, 2]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S65536x4096 .f32) (main_arg1 : FVec F S4096x2 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S65536x4096 : Shape := ⟨2, ![65536, 4096]⟩
abbrev S4096x2 : Shape := ⟨2, ![4096, 2]⟩
abbrev S_ : Shape := ⟨0, ![]⟩
abbrev S4096x128 : Shape := ⟨2, ![4096, 128]⟩
abbrev S1 : Shape := ⟨1, ![1]⟩
abbrev S65536x128 : Shape := ⟨2, ![65536, 128]⟩
abbrev S512x4096 : Shape := ⟨2, ![512, 4096]⟩
abbrev S512x128 : Shape := ⟨2, ![512, 128]⟩
abbrev S65536x2 : Shape := ⟨2, ![65536, 2]⟩

abbrev nBuf : Space → Nat
  | .hbm => 10
  | .vmem => 5
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S_, .f32⟩
  | .hbm, ⟨3, _⟩ => ⟨S4096x128, .f32⟩
  | .hbm, ⟨4, _⟩ => ⟨S_, .i32⟩
  | .hbm, ⟨5, _⟩ => ⟨S1, .i32⟩
  | .hbm, ⟨6, _⟩ => ⟨S4096x128, .f32⟩
  | .hbm, ⟨7, _⟩ => ⟨S4096x128, .bf16⟩
  | .hbm, ⟨8, _⟩ => ⟨S65536x128, .f32⟩
  | .hbm, ⟨9, _⟩ => ⟨S65536x2, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x128 : S_.BroadcastsInDim S4096x128 (![] : Fin 0 → Fin S4096x128.rank)
  bcast_S_S1 : S_.BroadcastsInDim S1 (![] : Fin 0 → Fin S1.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  slices_S65536x128_S65536x2_0_0 : S65536x128.Slices ![0, 0] S65536x2
  scatter_S4096x128_S1_S4096x2_01_n_1_0_wf : ScatterDims.WF S4096x128 S1 S4096x2 [0, 1] [] [1] 0
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S65536x128.size a
  hwx0_2 : ∀ i : grid0.Coords, EltTy.bits .f32 = 32 ∨ (Rect.block (s := S65536x128) S512x128.size (cc0_transform_2 i) (hinb0_2 i)).WholeWords (EltTy.packing .f32)

variable [Facts₀]

def scatter_S4096x128_S1_S4096x2_01_n_1_0 : ScatterDims S4096x128 S1 S4096x2 where
  updateWindowDims := [0, 1]
  insertedWindowDims := []
  scatterDimsToOperandDims := [1]
  indexVectorDim := 0
  wf := scatter_S4096x128_S1_S4096x2_01_n_1_0_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S4096x2 : Shape := ⟨2, ![4096, 2]⟩
abbrev S65536x2 : Shape := ⟨2, ![65536, 2]⟩

abbrev nBuf : Space → Nat
  | .hbm => 3
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S65536x2, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x4096_S4096x2_S65536x2_1_0_0_1_n_n_wf : DotDims.WF S65536x4096 S4096x2 S65536x2 [1] [0] [0] [1] [] []

variable [Facts₀]

def dot_S65536x4096_S4096x2_S65536x2_1_0_0_1_n_n : DotDims S65536x4096 S4096x2 S65536x2 where
  lhsContracting := [1]
  rhsContracting := [0]
  lhsNonContracting := [0]
  rhsNonContracting := [1]
  lhsBatch := []
  rhsBatch := []
  wf := dot_S65536x4096_S4096x2_S65536x2_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Entry.lean ====
/-
  The kernel body's value at one entry.

  At a grid point the body loads a [512 × 4096] block of activations and the whole [4096 × 128] weight array,
  narrows the activations to bf16 (the identity over the extended reals), and stores their matrix product
  accumulated into zero. Its dimension numbers contract the block's axis 1 with the weights' axis 0 and have no batch
  axis, so entry (p, q) of what is stored is the sum over k of block[p, k] · weights[k, q].
-/
import proofs.«153650_j62380105007527_1_alg».proof.Proof.Gen.KernelIdeal.Skeleton
import proofs.«153650_j62380105007527_1_alg».proof.Proof.LibMatmulAt
import Idealize.ShloMosaic.Lib.Pipeline.Value

noncomputable section

namespace Cert.KernelIdeal.Entry

open Cert.KernelIdeal Cert.KernelIdeal.Gen Idealize.ShloMosaic Idealize.ShloMosaic.ValueIdx

/-- Where the dimension numbers read the left operand: row from the output's row, -/
theorem lhs_row (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
/-- column from the contracted index; -/
theorem lhs_col (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
/-- and the right operand: row from the contracted index, -/
theorem rhs_row (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
/-- column from the output's column. -/
theorem rhs_col (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- Entry (p, q) of what the body stores is the sum over k of block[p, k] · weights[k, q]. -/
theorem payload_at (x0 : Vec Ideal S512x4096 .f32) (x1 : Vec Ideal S4096x128 .bf16) (p : Fin 512) (q : Fin 128) :
    k0_pay1 (F := Ideal) x0 x1 (ix2 p q) = ∑ k : Fin 4096, x0 (ix2 p k) * x1 (ix2 k q) := by
  unfold k0_pay1
  rw [shapeCast_self]
  exact MatmulAt.matmul_zero_at dot_S512x4096_S4096x128_S512x128_1_0_0_1_n_n rfl rfl lhs_row lhs_col rhs_row rhs_col none
    (truncf .bf16 x0 bitsLt_bf16_f32) x1 p q

end Cert.KernelIdeal.Entry

end
-- ==== Proof.Blocks.lean ====
/-
  From the blocks the grid points write back to the whole [65536 × 128] output array.

  Point t of the 128-point grid loads rows 512·t … 512·t + 511 of the activations and the whole weight array, and
  writes rows 512·t … 512·t + 511 of the output. So what it writes back is the block, at those rows, of ONE
  whole-array function: entry (r, q) is the sum over k of x[r, k] · weights[k, q]. The 128 row blocks tile the output,
  hence the output array ends holding that function.
-/
import proofs.«153650_j62380105007527_1_alg».proof.Proof.Gen.KernelIdeal.Frame
import proofs.«153650_j62380105007527_1_alg».proof.Proof.Entry
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The activations and the weight array as the region finds them. -/
abbrev xarr (c : Dev nD) : Vec Ideal S65536x4096 .f32 := V m c main_arg0
abbrev warr (c : Dev nD) : Vec Ideal S4096x128 .bf16 := V m c main_v3

/-- The product of the activations with the whole (wide) weight array, entry by entry. -/
def wideProduct (c : Dev nD) : Vec Ideal S65536x128 .f32 :=
  fun i => ∑ k : Fin 4096, xarr m c (ix2 (i 0) k) * warr m c (ix2 k (i 1))

theorem hz : (![0, 0] : Fin 2 → Nat) = fun _ => 0 := funext fun a => by fin_cases a <;> rfl

/-- The printed index maps over the grid: the activations' and the output's row block is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t, entry (p, k), is the array's entry (r, k) for the row r the output's block
    puts p on. -/
theorem xblk_at (c : Dev nD) (t : Fin cfg0.N) (p : Fin 512) (k : Fin 4096) (r : Fin 65536)
    (hr : r.val = t.val * 512 + p.val) :
    (iblk m c 0 t : Vec Ideal S512x4096 .f32) (ix2 p k) = xarr m c (ix2 r k) := by
  obtain ⟨e00, e01, -, -, -, -⟩ := idx_facts t
  show V m c main_arg0 (((cfg0.win 0).blk t).view.emb (ix2 p k)) = V m c main_arg0 (ix2 r k)
  congr 1
  funext a
  apply Fin.ext
  match a with
  | ⟨0, _⟩ => show win0_0.index t (0 : Fin 2) * 512 + 1 * p.val = r.val; omega
  | ⟨1, _⟩ => show win0_0.index t (1 : Fin 2) * 4096 + 1 * k.val = k.val; omega

/-- The weights' block at every point is the whole weight array. -/
theorem wblk_at (c : Dev nD) (t : Fin cfg0.N) (k : Fin 4096) (q : Fin 128) :
    (iblk m c 1 t : Vec Ideal S4096x128 .bf16) (ix2 k q) = warr m c (ix2 k q) := by
  obtain ⟨-, -, e10, e11, -, -⟩ := idx_facts t
  show V m c main_v3 (((cfg0.win 1).blk t).view.emb (ix2 k q)) = V m c main_v3 (ix2 k q)
  congr 1
  funext a
  apply Fin.ext
  match a with
  | ⟨0, _⟩ => show win0_1.index t (0 : Fin 2) * 4096 + 1 * k.val = k.val; omega
  | ⟨1, _⟩ => show win0_1.index t (1 : Fin 2) * 128 + 1 * q.val = q.val; omega

/-- The output block's entry (p, q) at point t sits at row 512·t + p, column q of the output array. -/
theorem oblk_row (t : Fin cfg0.N) (p : Fin 512) (q : Fin 128) :
    ((((cfg0.win 2).blk t).view.emb (ix2 p q)) 0).val = t.val * 512 + p.val := by
  obtain ⟨-, -, -, -, e20, -⟩ := idx_facts t
  show win0_2.index t (0 : Fin 2) * 512 + 1 * p.val = _
  omega
theorem oblk_col (t : Fin cfg0.N) (p : Fin 512) (q : Fin 128) :
    ((((cfg0.win 2).blk t).view.emb (ix2 p q)) 1).val = q.val := by
  obtain ⟨-, -, -, -, -, e21⟩ := idx_facts t
  show win0_2.index t (1 : Fin 2) * 128 + 1 * q.val = _
  omega

/-- What point t writes back is block t of the wide product. -/
theorem flushed_eq (c : Dev nD) (t : Fin cfg0.N) :
    (dats m 0 c).flushed 2 t = ((cfg0.win 2).blk t).view.read (Elt Ideal) (wideProduct m c) := by
  show (cfg0.win 2).cut (grid0.coords t) ((dats m 0 c).after 2 t) = _
  rw [after0_2]
  unfold out0_2
  rw [View.canon_unit_zero hz]
  simp only [View.ld_unit_zero (S := S512x4096) hz, View.ld_unit_zero (S := S4096x128) hz]
  funext j
  obtain ⟨p, q, rfl⟩ : ∃ (p : Fin 512) (q : Fin 128), j = ix2 p q := ⟨j 0, j 1, eq_ix2 j⟩
  show k0_pay1 (iblk m c 0 t) (iblk m c 1 t) (ix2 p q) = wideProduct m c (((cfg0.win 2).blk t).view.emb (ix2 p q))
  refine (Entry.payload_at (iblk m c 0 t) (iblk m c 1 t) p q).trans ?_
  unfold wideProduct
  refine Finset.sum_congr rfl fun k _ => ?_
  rw [xblk_at m c t p k ((((cfg0.win 2).blk t).view.emb (ix2 p q)) 0) (oblk_row t p q), wblk_at m c t k q]
  have hq : ((((cfg0.win 2).blk t).view.emb (ix2 p q)) 1) = q := Fin.ext (oblk_col t p q)
  rw [hq]

/-- An index of the output array is in point t's block iff each coordinate is in the block's range on its axis. -/
theorem mem_blk (t : Fin cfg0.N) (i : S65536x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v4).slice (win0_2.rect t)).set ↔ _
  rw [View.set_slice_whole, Rect.mem_set_unit]
  exact Iff.rfl

/-- Every index of the output array is in the block of the point its row names: row r is in block r / 512. -/
theorem cover (i : S65536x128.Idx) : ∃ t : Fin cfg0.N, (cfg0.win 2).flush t = true ∧ i ∈ ((cfg0.win 2).blk t).view.set := by
  have hi0 : (i 0).val < 65536 := (i 0).isLt
  have hi1 : (i 1).val < 128 := (i 1).isLt
  have ht : (i 0).val / 512 < cfg0.N := by
    show (i 0).val / 512 < grid0.N
    rw [N_0]; omega
  obtain ⟨-, -, -, -, e20, e21⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e20]
    show (i 0).val / 512 * 512 ≤ (i 0).val ∧ (i 0).val < (i 0).val / 512 * 512 + 512
    omega
  | ⟨1, _⟩ =>
    show win0_2.index ⟨(i 0).val / 512, ht⟩ (1 : Fin 2) * 128 ≤ (i 1).val ∧ (i 1).val < win0_2.index ⟨(i 0).val / 512, ht⟩ (1 : Fin 2) * 128 + 128
    omega

/-- The output array after the run is the wide product. -/
theorem final (c : Dev nD) : (dats m 0 c).arrAt 2 cfg0.N = wideProduct m c :=
  (dats m 0 c).arrAt_eq_of_cover 2 (wideProduct m c) (fun t _ => flushed_eq m c t) cover

end Cert.KernelIdeal.Blocks

end
-- ==== Proof.LibScatterSet.lean ====
/-
  A scatter whose body keeps the update, read at an index that exactly one update lands on.

  The host's scatter is a left fold over the update indices in row-major order: each update index `j` whose result
  index lies inside the operand replaces the operand's element there by the body's value, and the others are
  dropped. With the body `fun _ b => b` (the update itself, as in `x.at[…].set(u)`), an element of the result
  that is the landing place of exactly one update index holds that update, whatever the operand held and wherever the
  other updates land. The two facts about the landing places are hypotheses, so the lemma serves any dimension
  numbers and any scatter indices.
-/
import Idealize.ShloMosaic.PureOps.ShapeOps

noncomputable section

namespace Idealize.ShloMosaic.ScatterSet

open Idealize.ShloMosaic

section Fold

variable {ι κ α : Type}

/-- A step `st` of a fold that SETS: the update `n` puts `v n` at its landing place `g n` (if it has one) and keeps
    every other element. -/
structure IsSetStep (g : ι → Option κ) (v : ι → α) (st : (κ → α) → ι → κ → α) : Prop where
  hit : ∀ r n i, g n = some i → st r n i = v n
  off : ∀ r n i', g n ≠ some i' → st r n i' = r i'

variable {g : ι → Option κ} {v : ι → α} {st : (κ → α) → ι → κ → α}

/-- Updates none of which lands on `i` leave the element at `i` as it was. -/
theorem foldl_miss (hst : IsSetStep g v st) (l : List ι) (r : κ → α) (i : κ) (h : ∀ n ∈ l, g n ≠ some i) :
    (l.foldl st r) i = r i := by
  induction l generalizing r with
  | nil => rfl
  | cons n l ih =>
    rw [List.foldl_cons, ih _ (fun n' hn' => h n' (List.mem_cons_of_mem _ hn'))]
    exact hst.off r n i (h n (List.mem_cons_self ..))

/-- If `n₀` is the one update of the list that lands on `i`, the element at `i` ends as that update. -/
theorem foldl_hit (hst : IsSetStep g v st) (l : List ι) (hl : l.Nodup) (r : κ → α) (i : κ) (n₀ : ι) (hn : n₀ ∈ l)
    (hg : g n₀ = some i) (huniq : ∀ n ∈ l, g n = some i → n = n₀) : (l.foldl st r) i = v n₀ := by
  induction l generalizing r with
  | nil => exact absurd hn (List.not_mem_nil)
  | cons n l ih =>
    rw [List.foldl_cons]
    have hnd := List.nodup_cons.mp hl
    by_cases hnn : n = n₀
    · subst hnn
      rw [foldl_miss hst l _ i (fun n' hn' e => hnd.1 ((huniq n' (List.mem_cons_of_mem _ hn') e) ▸ hn'))]
      exact hst.hit r n i hg
    · have hn' : n₀ ∈ l := by
        rcases List.mem_cons.mp hn with e | e
        · exact absurd e.symm hnn
        · exact e
      exact ih hnd.2 _ hn' (fun n' h' e => huniq n' (List.mem_cons_of_mem _ h') e)

end Fold

/-- The scatter with the body that keeps the update, at an index `i` on which the update index `j` lands (`hj`) and
    no other does (`huniq`): the result holds `upd j` there. -/
theorem scatter_set_at {s si u : Shape} {α : Type} {w : Nat} (d : ScatterDims s si u) (x : s.Idx → α) (idx : IVec si w)
    (upd : u.Idx → α) (j : u.Idx) (i : s.Idx) (hj : d.resultIdx? j idx = some i)
    (huniq : ∀ j', d.resultIdx? j' idx = some i → j' = j) :
    Host.scatter d (fun _ b => b) x idx upd i = upd j := by
  unfold Host.scatter
  have hst : IsSetStep (fun n : Fin u.numel => d.resultIdx? (u.rowMajor.symm n) idx) (fun n => upd (u.rowMajor.symm n))
      (fun (r : s.Idx → α) (n : Fin u.numel) =>
        match d.resultIdx? (u.rowMajor.symm n) idx with
        | some i => fun i' => if i' = i then (fun _ b => b) (r i) (upd (u.rowMajor.symm n)) else r i'
        | none => r) := by
    constructor
    · intro r n i h
      dsimp only at h ⊢
      rw [h]
      exact if_pos rfl
    · intro r n i' h
      dsimp only at h ⊢
      cases hg : d.resultIdx? (u.rowMajor.symm n) idx with
      | none => rfl
      | some i0 =>
        have hne : i' ≠ i0 := fun e => h (by rw [hg, e])
        exact if_neg hne
  have h := foldl_hit hst (List.finRange u.numel) (List.nodup_finRange _) x i (u.rowMajor j) (List.mem_finRange _)
    (by show d.resultIdx? (u.rowMajor.symm (u.rowMajor j)) idx = some i; rw [Equiv.symm_apply_apply]; exact hj)
    (fun n _ e => (Equiv.symm_apply_eq _).mp (huniq _ e))
  rw [Equiv.symm_apply_apply] at h
  exact h

end Idealize.ShloMosaic.ScatterSet

end
-- ==== Proof.PaddedWeights.lean ====
/-
  The zero-padded weight matrix, entry by entry, in its first two columns.

  The program widens the [4096 × 2] weight matrix to [4096 × 128] by scattering it, with the body that keeps the
  update, into an array of zeros at the one start index the index vector names; the scatter's dimension numbers put
  update axis 0 on operand axis 0 and update axis 1 on operand axis 1, and read the start on operand axis 1 from the
  index vector. When that vector is zero, update (k, c) lands on entry (k, c) of the wide array and on no other, so
  the wide array holds the weight w[k, c] there. (The columns from 2 on keep the zeros; nothing below reads them.)
-/
import proofs.«153650_j62380105007527_1_alg».proof.Proof.Gen.KernelIdeal
import proofs.«153650_j62380105007527_1_alg».proof.Proof.LibScatterSet
import Idealize.ShloMosaic.Lib.ValueIdx

noncomputable section

namespace Cert.KernelIdeal.Pad

open Cert.KernelIdeal Cert.KernelIdeal.Gen Idealize.ShloMosaic Idealize.ShloMosaic.ValueIdx

/-- The scatter's dimension numbers. -/
abbrev D : ScatterDims S4096x128 S1 S4096x2 := scatter_S4096x128_S1_S4096x2_01_n_1_0

/-- Operand axis 0 is not named by the start index: the window starts at row 0. -/
theorem start0 (idx : IVec S1 32) (j : S4096x2.Idx) : D.start j idx 0 = 0 := by
  unfold ScatterDims.start
  rw [dif_neg (show ¬(0 : Fin S4096x128.rank) ∈ D.scatterDimsToOperandDims by decide)]

/-- Operand axis 1 starts where the index vector says: at column 0 when the vector is zero. -/
theorem start1 (idx : IVec S1 32) (hidx : ∀ a, idx a = 0#32) (j : S4096x2.Idx) : D.start j idx 1 = 0 := by
  unfold ScatterDims.start
  rw [dif_pos (show (1 : Fin S4096x128.rank) ∈ D.scatterDimsToOperandDims by decide), hidx]
  rfl

/-- The window coordinate on operand axis 0 is the update's row. -/
theorem window0 (j : S4096x2.Idx) : D.window j 0 = (j 0).val := by
  unfold ScatterDims.window
  rw [dif_pos (show (0 : Fin S4096x128.rank) ∈ D.sKept by decide)]
  rfl

/-- The window coordinate on operand axis 1 is the update's column. -/
theorem window1 (j : S4096x2.Idx) : D.window j 1 = (j 1).val := by
  unfold ScatterDims.window
  rw [dif_pos (show (1 : Fin S4096x128.rank) ∈ D.sKept by decide)]
  rfl

/-- Column `c` of the narrow matrix as a column of the wide one. -/
abbrev wide (c : Fin 2) : Fin 128 := ⟨c.val, by omega⟩

/-- With a zero index vector, update (k, c) lands on entry (k, c) of the wide array. -/
theorem landing (idx : IVec S1 32) (hidx : ∀ a, idx a = 0#32) (k : Fin 4096) (c : Fin 2) :
    D.resultIdx? (ix2 k c : S4096x2.Idx) idx = some (ix2 k (wide c) : S4096x128.Idx) := by
  unfold ScatterDims.resultIdx?
  have hb : ∀ a : Fin S4096x128.rank, 0 ≤ D.start (ix2 k c : S4096x2.Idx) idx a + D.window (ix2 k c : S4096x2.Idx) a
      ∧ D.start (ix2 k c : S4096x2.Idx) idx a + D.window (ix2 k c : S4096x2.Idx) a < S4096x128.size a := by
    refine Fin.forall_fin_two.mpr ⟨?_, ?_⟩
    · rw [start0, window0]
      have : k.val < 4096 := k.isLt
      show 0 ≤ (0 : Int) + ((k.val : Nat) : Int) ∧ (0 : Int) + ((k.val : Nat) : Int) < ((4096 : Nat) : Int)
      omega
    · rw [start1 idx hidx, window1]
      have : c.val < 2 := c.isLt
      show 0 ≤ (0 : Int) + ((c.val : Nat) : Int) ∧ (0 : Int) + ((c.val : Nat) : Int) < ((128 : Nat) : Int)
      omega
  rw [dif_pos hb]
  congr 1
  funext a
  revert a
  refine Fin.forall_fin_two.mpr ⟨?_, ?_⟩
  · apply Fin.ext
    show (D.start (ix2 k c : S4096x2.Idx) idx 0 + D.window (ix2 k c : S4096x2.Idx) 0).toNat = k.val
    rw [start0, window0]
    show ((0 : Int) + ((k.val : Nat) : Int)).toNat = k.val
    omega
  · apply Fin.ext
    show (D.start (ix2 k c : S4096x2.Idx) idx 1 + D.window (ix2 k c : S4096x2.Idx) 1).toNat = c.val
    rw [start1 idx hidx, window1]
    show ((0 : Int) + ((c.val : Nat) : Int)).toNat = c.val
    omega

/-- And no other update lands there. -/
theorem landing_unique (idx : IVec S1 32) (hidx : ∀ a, idx a = 0#32) (k : Fin 4096) (c : Fin 2) (j' : S4096x2.Idx)
    (h : D.resultIdx? j' idx = some (ix2 k (wide c) : S4096x128.Idx)) : j' = (ix2 k c : S4096x2.Idx) := by
  obtain ⟨k', c', rfl⟩ : ∃ (k' : Fin 4096) (c' : Fin 2), j' = (ix2 k' c' : S4096x2.Idx) := ⟨j' 0, j' 1, eq_ix2 j'⟩
  rw [landing idx hidx k' c'] at h
  have e := Option.some.inj h
  have e0 : k' = k := congrFun e 0
  have e1 : wide c' = wide c := congrFun e 1
  have hv : (wide c').val = (wide c).val := congrArg Fin.val e1
  have e1' : c' = c := Fin.ext hv
  rw [e0, e1']

/-- The scatter of `upd` into `x` at a zero index vector holds `upd (k, c)` at entry (k, c), whatever `x` is. -/
theorem set_columns_at {α : Type} (x : S4096x128.Idx → α) (idx : IVec S1 32) (hidx : ∀ a, idx a = 0#32)
    (upd : S4096x2.Idx → α) (k : Fin 4096) (c : Fin 2) :
    Host.scatter D (fun _ b => b) x idx upd (ix2 k (wide c) : S4096x128.Idx) = upd (ix2 k c : S4096x2.Idx) :=
  ScatterSet.scatter_set_at D x idx upd (ix2 k c : S4096x2.Idx) (ix2 k (wide c) : S4096x128.Idx) (landing idx hidx k c)
    (landing_unique idx hidx k c)

end Cert.KernelIdeal.Pad

end
-- ==== Proof.WeightArray.lean ====
/-
  The weight array as the kernel region finds it.

  Before the region the host builds the region's second operand: zeros of shape [4096 × 128], the weight matrix
  scattered into them at the start index [0], the result narrowed to bf16. Over the extended reals the narrowing is
  the identity, so entry (k, j) of that array, for a column j below 2, is the weight w[k, j].
-/
import proofs.«153650_j62380105007527_1_alg».proof.Proof.Gen.KernelIdeal.Frame
import proofs.«153650_j62380105007527_1_alg».proof.Proof.PaddedWeights
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The region's second operand is the host's term of the weight argument. -/
theorem weights_term (c : Dev nD) :
    (V m c main_v3 : Vec F S4096x128 .bf16)
      = truncf .bf16 (Host.scatter scatter_S4096x128_S1_S4096x2_01_n_1_0 (fun _ b => b)
          (broadcastInDim S4096x128 ![] bcast_S_S4096x128 (constant (F := F) S_ .f32 0x00000000#32))
          (broadcastInDim S1 ![] bcast_S_S1 (constantI S_ 32 0#32))
          (m ((c : Thread nD τ).loc main_arg1))) bitsLt_bf16_f32 := by
  show StableHlo.after hostOps0 (fun b => m (c, b)) (Proc.devRef .tc main_v3) = _
  after_results

end Cert.KernelIdeal.Weights

namespace Cert.KernelIdeal.Weights

open Cert.KernelIdeal Cert.KernelIdeal.Gen Idealize.ShloMosaic Idealize.ShloMosaic.TcCoe Idealize.SL.Sem
open Idealize.ShloMosaic.ValueIdx

/-- The index vector the host scatters at is zero. -/
theorem start_zero (a : S1.Idx) : (broadcastInDim S1 ![] bcast_S_S1 (constantI S_ 32 0#32) : IVec S1 32) a = 0#32 := rfl

attribute [local irreducible] Host.scatter in
/-- Over the extended reals, entry (k, j) of the region's second operand, for j below 2, is the weight w[k, j]. -/
theorem weights_at (m : (ℓ : Loc nD τ sig) → Buf (Elt Ideal) ℓ) (c : Dev nD) (k : Fin 4096) (j : Fin 2) :
    (V m c main_v3 : Vec Ideal S4096x128 .bf16) (ix2 k (Pad.wide j))
      = (m ((c : Thread nD τ).loc main_arg1) : Vec Ideal S4096x2 .f32) (ix2 k j) := by
  refine (congrFun (weights_term m c) (ix2 k (Pad.wide j))).trans ?_
  show Host.scatter Pad.D (fun _ b => b)
      (broadcastInDim S4096x128 ![] bcast_S_S4096x128 (constant (F := Ideal) S_ .f32 0x00000000#32))
      (broadcastInDim S1 ![] bcast_S_S1 (constantI S_ 32 0#32))
      (m ((c : Thread nD τ).loc main_arg1)) (ix2 k (Pad.wide j)) = _
  exact Pad.set_columns_at (α := EReal)
    (broadcastInDim S4096x128 ![] bcast_S_S4096x128 (constant (F := Ideal) S_ .f32 0x00000000#32))
    (broadcastInDim S1 ![] bcast_S_S1 (constantI S_ 32 0#32)) start_zero
    (m ((c : Thread nD τ).loc main_arg1)) k j

end Cert.KernelIdeal.Weights

end
-- ==== Proof.Product.lean ====
/-
  The specification: the product of the activations with the weights, over the extended reals.

  Entry (r, j) of the result is the sum over the 4096 experts k of x[r, k] · w[k, j]. The sum is a finite sum in a
  commutative monoid, so it does not depend on the order or grouping in which a program accumulates it.
-/
import Idealize.ShloMosaic.PureOps.Ideal
import Idealize.ShloMosaic.Lib.ValueIdx

noncomputable section

namespace Cert.RouterProduct

open Idealize.ShloMosaic Idealize.ShloMosaic.ValueIdx

/-- `x · w` for `x : [65536 × 4096]` and `w : [4096 × 2]`, entry by entry. -/
def product (x : (⟨2, ![65536, 4096]⟩ : Shape).Idx → EReal) (w : (⟨2, ![4096, 2]⟩ : Shape).Idx → EReal) :
    (⟨2, ![65536, 2]⟩ : Shape).Idx → EReal :=
  fun i => ∑ k : Fin 4096, x (ix2 (i 0) k) * w (ix2 k (i 1))

theorem product_apply (x : (⟨2, ![65536, 4096]⟩ : Shape).Idx → EReal) (w : (⟨2, ![4096, 2]⟩ : Shape).Idx → EReal)
    (r : Fin 65536) (j : Fin 2) : product x w (ix2 r j) = ∑ k : Fin 4096, x (ix2 r k) * w (ix2 k j) := rfl

end Cert.RouterProduct

end
-- ==== Proof.KernelProduct.lean ====
/-
  The kernel's result, and its run with the result named.

  After the region the host keeps columns 0 and 1 of the [65536 × 128] output. Entry (r, j) of the result is
  therefore entry (r, j) of the wide product, the sum over k of x[r, k] · weights[k, j] with j below 2, where the
  weight array holds the weight matrix itself: the product of the activations with the weights.
-/
import proofs.«153650_j62380105007527_1_alg».proof.Proof.Gen.KernelIdeal.Frame
import proofs.«153650_j62380105007527_1_alg».proof.Proof.Blocks
import proofs.«153650_j62380105007527_1_alg».proof.Proof.WeightArray
import proofs.«153650_j62380105007527_1_alg».proof.Proof.Product
import Idealize.ShloMosaic.Lib.StableHlo.Run
import Idealize.ShloMosaic.Lib.ValueLayout

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.KernelIdeal.Blocks Cert.RouterProduct

variable (m : (ℓ : Loc nD τ sig) → Buf (Elt Ideal) ℓ) (ρ : Dev nD → PrngReg)

/-- The host line after the region leaves columns 0 and 1 of the wide product in the result. -/
theorem tail_term (c : Dev nD) :
    Pipeline.afterTail₀ cfgs (dats m) 0 (V0 m) [hostOps1] c main_v5
      = extractStridedSlice S65536x2 ![0, 0] (wideProduct m c) slices_S65536x128_S65536x2_0_0 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = wideProduct m c :=
    (Pipeline.withArrays_arr spec0 launch0.win.arr_inj c _ _ 2).trans (final m c)
  rw [e]

/-- No host line before the region writes the activations: the region finds them as launched. -/
theorem xarr_eq (c : Dev nD) : xarr m c = (m ((c : Thread nD τ).loc main_arg0) : Vec Ideal S65536x4096 .f32) :=
  V_main_arg0 m c

/-- The result is the product of the two arguments. -/
theorem result_eq (c : Dev nD) :
    Pipeline.afterTail₀ cfgs (dats m) 0 (V0 m) [hostOps1] c main_v5
      = product (m ((c : Thread nD τ).loc main_arg0)) (m ((c : Thread nD τ).loc main_arg1)) := by
  rw [tail_term]
  funext i
  obtain ⟨r, j, rfl⟩ : ∃ (r : Fin 65536) (j : Fin 2), i = ix2 r j := ⟨i 0, i 1, eq_ix2 i⟩
  refine (slice2_axis1_apply 0 (wideProduct m c) slices_S65536x128_S65536x2_0_0 r j (Pad.wide j) (Nat.zero_add _).symm).trans ?_
  rw [product_apply]
  show ∑ k : Fin 4096, xarr m c (ix2 r k) * warr m c (ix2 k (Pad.wide j)) = _
  refine Finset.sum_congr rfl fun k _ => ?_
  rw [show warr m c (ix2 k (Pad.wide j)) = (m ((c : Thread nD τ).loc main_arg1) : Vec Ideal S4096x2 .f32) (ix2 k j) from
    Weights.weights_at m c k j]
  rw [xarr_eq]

/-- Every weakly fair execution of the idealized kernel ends with the result at the product of the arguments, and the
    arguments unchanged. -/
theorem run : θ_run defs (onTc (τ := τ) (main (F := Ideal))) ⟨m, fun _ => 0, ρ⟩ (fun r => ∀ c : Dev nD,
      r.2.mem ((c.tc : Thread nD τ).loc main_v5) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v5 (Pipeline.mem_restRefs_of main_v5 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.ReferenceProduct.lean ====
/-
  The reference computes the specification.

  The reference is one `dot_general` contracting the activations' axis 1 with the weights' axis 0. Over the extended
  reals its entry (r, j) is the sum over k of x[r, k] · w[k, j]: the operand indices the generated read-at-an-index
  lemma names are (r, k) and (k, j).
-/
import proofs.«153650_j62380105007527_1_alg».proof.Proof.Gen.ReferenceIdeal.Read
import proofs.«153650_j62380105007527_1_alg».proof.Proof.Product

noncomputable section

namespace Cert.ReferenceIdeal.RefValue

open Cert.ReferenceIdeal Cert.ReferenceIdeal.Gen Cert.ReferenceIdeal.Read Idealize.ShloMosaic Idealize.ShloMosaic.ValueIdx
open Cert.RouterProduct

/-- The reference's one stage is the product of its two arguments. -/
theorem dot_eq_product (x : (⟨S65536x4096, .f32⟩ : BufTy).Contents (Elt Ideal)) (w : (⟨S4096x2, .f32⟩ : BufTy).Contents (Elt Ideal)) :
    val_main_v0 (F := Ideal) x w = product x w := by
  funext i
  rw [val_main_v0_apply]
  refine Finset.sum_congr rfl fun k _ => ?_
  have el : lidx_main_v0 i k = (ix2 (i 0) k : S65536x4096.Idx) := funext fun a => Fin.ext (by
    match a with
    | ⟨0, _⟩ => rfl
    | ⟨1, _⟩ => rfl)
  have er : ridx_main_v0 i k = (ix2 k (i 1) : S4096x2.Idx) := funext fun a => Fin.ext (by
    match a with
    | ⟨0, _⟩ => rfl
    | ⟨1, _⟩ => rfl)
  rw [el, er]

end Cert.ReferenceIdeal.RefValue

end
-- ==== Proof.lean ====
/-
  A routing matmul, tiled over the batch, against one whole matrix product.

  The kernel widens the [4096 × 2] weight matrix to [4096 × 128] with zero columns, narrows it to bf16, and at each
  of 128 grid points multiplies a [512 × 4096] block of the activations (narrowed to bf16 in the body) by the whole
  wide weight array into a zero accumulator, writing a [512 × 128] block of the output; the host then keeps columns 0
  and 1. The reference is one matrix product of the [65536 × 4096] activations with the [4096 × 2] weights.

  Over the extended reals a change of float format is the identity and a matrix product into zero is the sum over the
  contracted axis. So entry (r, j) of the kernel's result is the sum over k of x[r, k] · W[k, j], where W is the wide
  weight array and j is below 2; there W[k, j] is the weight w[k, j], because the scatter that builds W puts update
  (k, j) on entry (k, j) and nothing else there. That is the reference's entry (r, j). The zero columns are never
  read, the row blocks tile the output, and no law beyond reading both sides as the same finite sum is used, so the
  proof never opens the precondition.

  The frames of the two kernel programs and the reference's run are the generated ones; the idealization rewrote no
  operation, so that claim is trivial.
-/
import proofs.«153650_j62380105007527_1_alg».proof.Defs
import proofs.«153650_j62380105007527_1_alg».proof.Proof.Gen.Kernel
import proofs.«153650_j62380105007527_1_alg».proof.Proof.Gen.Kernel.Skeleton
import proofs.«153650_j62380105007527_1_alg».proof.Proof.Gen.Kernel.Launch
import proofs.«153650_j62380105007527_1_alg».proof.Proof.Gen.Kernel.Points
import proofs.«153650_j62380105007527_1_alg».proof.Proof.Gen.Kernel.Frame
import proofs.«153650_j62380105007527_1_alg».proof.Proof.Gen.KernelIdeal
import proofs.«153650_j62380105007527_1_alg».proof.Proof.Gen.KernelIdeal.Skeleton
import proofs.«153650_j62380105007527_1_alg».proof.Proof.Gen.KernelIdeal.Launch
import proofs.«153650_j62380105007527_1_alg».proof.Proof.Gen.KernelIdeal.Points
import proofs.«153650_j62380105007527_1_alg».proof.Proof.Gen.KernelIdeal.Frame
import proofs.«153650_j62380105007527_1_alg».proof.Proof.Gen.ReferenceIdeal
import proofs.«153650_j62380105007527_1_alg».proof.Proof.Gen.ReferenceIdeal.Run
import proofs.«153650_j62380105007527_1_alg».proof.Proof.Gen.ReferenceIdeal.Read
import proofs.«153650_j62380105007527_1_alg».proof.Proof.Gen.Pre_finite_inputs
import proofs.«153650_j62380105007527_1_alg».proof.Proof.KernelProduct
import proofs.«153650_j62380105007527_1_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the product of the activations with the weights: the kernel by its blocks and the host's
    slice, the reference by its one matrix product, of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.dot_eq_product _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
